-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x128 : Shape := ⟨3, ![1024, 1024, 128]⟩
abbrev S1024x128 : Shape := ⟨2, ![1024, 128]⟩
abbrev S_ : Shape := ⟨0, ![]⟩

class Facts : Prop where
  bcast_S_S1024x1024x128 : S_.BroadcastsInDim S1024x1024x128 (![] : Fin 0 → Fin S1024x1024x128.rank)
  reducesTo_S1024x1024x128_S_d0_1_2 : S1024x1024x128.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S1024x1024x128 .f32) (main_arg1 : FVec F S1024x128 .f32) : IVec S_ 1 :=
  let main_v0 : FVec F S1024x1024x128 .f32 := Host.absf main_arg0
  let main_cst : FVec F S_ .f32 := constant S_ .f32 0x7F800000#32
  let main_v1 : FVec F S1024x1024x128 .f32 := broadcastInDim S1024x1024x128 ![] bcast_S_S1024x1024x128 main_cst
  let main_v2 : IVec S1024x1024x128 1 := cmpf .olt main_v0 main_v1
  let main_c : IVec S_ 1 := constantI S_ 1 1#1
  let main_v3 : IVec S_ 1 := (fun x v => Host.reduce IntOp.andi x v reducesTo_S1024x1024x128_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S1024x1024x128 : Shape := ⟨3, ![1024, 1024, 128]⟩
abbrev S1024x128 : Shape := ⟨2, ![1024, 128]⟩
abbrev S1x1 : Shape := ⟨2, ![1, 1]⟩
abbrev S16x1024x128 : Shape := ⟨3, ![16, 1024, 128]⟩
abbrev S1x1024x128 : Shape := ⟨3, ![1, 1024, 128]⟩
abbrev S16x1024 : Shape := ⟨2, ![16, 1024]⟩
abbrev S16 : Shape := ⟨1, ![16]⟩
abbrev S16x1 : Shape := ⟨2, ![16, 1]⟩
abbrev S1 : Shape := ⟨1, ![1]⟩
abbrev S_ : Shape := ⟨0, ![]⟩

abbrev nBuf : Space → Nat
  | .hbm => 6
  | .vmem => 5
  | .smem => 0
  | _ => 0

abbrev bufTy : (tb : Table) → Fin (tcTables nBuf tb) → BufTy
  | .hbm, ⟨0, _⟩ => ⟨S1024x1024x128, .f32⟩
  | .hbm, ⟨1, _⟩ => ⟨S1024x128, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S16x1024x128, .f32⟩
  | .local _ .vmem, ⟨1, _⟩ => ⟨S16x1024x128, .f32⟩
  | .local _ .vmem, ⟨2, _⟩ => ⟨S1024x128, .f32⟩
  | .local _ .vmem, ⟨3, _⟩ => ⟨S1x1, .f32⟩
  | .local _ .vmem, ⟨4, _⟩ => ⟨S1x1, .f32⟩
  | _, _ => ⟨S1024x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v20 : BitVec 1 := Scalar.cmpi .eq arg0 c63_i32
  let v21 : BitVec 32 := Scalar.extui v20
  let c0_i32_11 : BitVec 32 := 0#32
  let v22 : BitVec 1 := Scalar.cmpi .ne v21 c0_i32_11
  v22

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x1024x128_S16x1024x128_0_0_0 : ∀ a, (![0, 0, 0] : Fin 3 → Nat) a + S16x1024x128.size a ≤ S16x1024x128.size a
  h_S16x1024x128 : 0 < S16x1024x128.numel
  inb_S1024x128_S1024x128_0_0 : ∀ a, (![0, 0] : Fin 2 → Nat) a + S1024x128.size a ≤ S1024x128.size a
  h_S1024x128 : 0 < S1024x128.numel
  shapeCasts_S1024x128_S1x1024x128 : S1024x128.ShapeCasts S1x1024x128
  broadcasts_S1x1024x128_S16x1024x128 : S1x1024x128.Broadcasts S16x1024x128
  reduces_S16x1024x128_S16x1024 : S16x1024x128.Reduces [2] S16x1024
  reduces_S16x1024_S16 : S16x1024.Reduces [1] S16
  shapeCasts_S16_S16x1 : S16.ShapeCasts S16x1
  reduces_S16x1_S1 : S16x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x128.size a ≤ S1024x1024x128.size a
  hwx0_0 : ∀ i : grid0.Coords, EltTy.bits .f32 = 32 ∨ (Rect.block (s := S1024x1024x128) S16x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S16x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x1024x128 : Shape := ⟨3, ![1024, 1024, 128]⟩
abbrev S1024x128 : Shape := ⟨2, ![1024, 128]⟩
abbrev S1x1024x128 : Shape := ⟨3, ![1, 1024, 128]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x1024x128, .f32⟩
  | .hbm, ⟨1, _⟩ => ⟨S1024x128, .f32⟩
  | .hbm, ⟨2, _⟩ => ⟨S1x1024x128, .f32⟩
  | .hbm, ⟨3, _⟩ => ⟨S1024x1024x128, .f32⟩
  | .hbm, ⟨4, _⟩ => ⟨S1024x1024x128, .f32⟩
  | .hbm, ⟨5, _⟩ => ⟨S1024x1024x128, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S1024x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S1024x128_S1x1024x128_1_2 : S1024x128.BroadcastsInDim S1x1024x128 (![1, 2] : Fin 2 → Fin S1x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  h_S_ : 0 < S_.numel
  reducesTo_S1024x1024_S_d0_1 : S1024x1024.ReducesTo [0, 1] S_

variable [Facts₀]

class Facts : Prop extends Facts₀ where

variable [Facts]
-- ==== Proof.KernelPieces.lean ====
/-
  What one grid point of the kernel leaves behind, for any float instance.

  The body keeps a one-entry accumulator. At every point it loads a block of sixteen slabs and the whole table,
  computes the block's sum of distances, and stores accumulator + block sum back into the accumulator. At the first
  point it stores zero into the accumulator first, so the value it adds to is that zero. At the last point it
  copies the updated accumulator to the output entry. So in each of the three cases the accumulator ends at the
  update term of the two loaded blocks and of the value the accumulator held (the stored zero at the first point),
  and at the last point the output entry ends at that same term.
-/
import proofs.«152347_j84490596646977_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First point: the accumulator is set to zero, read back, and ends at zero's update by the block sum. -/
theorem acc_first (c : Dev nD) (i : grid0.Coords) (a1 : Memref sig .tc .vmem S16x1024x128 .f32) (h1 : a1.IsWhole)
    (a2 : Memref sig .tc .vmem S1024x128 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 : Vec F S16x1024x128 .f32) (x1 : Vec F S1024x128 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S16x1024x128) hz3,
    View.ld_unit_zero (S := S1024x128) hz2]

/-- A middle point: the accumulator holding xs ends at xs's update by the block sum. -/
theorem acc_middle (c : Dev nD) (i : grid0.Coords) (a1 : Memref sig .tc .vmem S16x1024x128 .f32) (h1 : a1.IsWhole)
    (a2 : Memref sig .tc .vmem S1024x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 : Vec F S16x1024x128 .f32) (x1 : Vec F S1024x128 .f32) (xs0 : Vec F S1x1 .f32) :
    sout0_B_0 c i a1 h1 a2 h2 a3 h3 a4 h4 hc0 hc1 x0 x1 xs0 = k0_pay2 x0 x1 xs0 := by
  unfold sout0_B_0
  rw [View.read_writes_eq_canon _ _ _ (scover0_B_0 c i a1 h1 a2 h2 a3 h3 a4 h4 hc0 hc1 x0 x1 xs0)]
  unfold kernelRun0_B
  dsimp only
  sl_unfold_words
  rw [View.canon_unit_zero hz2]
  simp only [View.readAt_eq_ld, h1.read_unread, h2.read_unread, h4.read_unread, View.ld_unit_zero (S := S16x1024x128) hz3,
    View.ld_unit_zero (S := S1024x128) hz2, View.ld_unit_zero (S := S1x1) hz2]

/-- Last point: the accumulator likewise, -/
theorem acc_last (c : Dev nD) (i : grid0.Coords) (a1 : Memref sig .tc .vmem S16x1024x128 .f32) (h1 : a1.IsWhole)
    (a2 : Memref sig .tc .vmem S1024x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S16x1024x128 .f32) (x1 : Vec F S1024x128 .f32) (xs0 : Vec F S1x1 .f32) :
    sout0_C_0 c i a1 h1 a2 h2 a3 h3 a4 h4 hc0 hc1 x0 x1 xs0 = k0_pay2 x0 x1 xs0 := by
  unfold sout0_C_0
  rw [View.read_writes_eq_canon _ _ _ (scover0_C_0 c i a1 h1 a2 h2 a3 h3 a4 h4 hc0 hc1 x0 x1 xs0)]
  unfold kernelRun0_C
  dsimp only
  sl_unfold_words
  rw [View.canon_unit_zero hz2]
  simp only [View.readAt_eq_ld, h1.read_unread, h2.read_unread, h4.read_unread, View.ld_unit_zero (S := S16x1024x128) hz3,
    View.ld_unit_zero (S := S1024x128) hz2, View.ld_unit_zero (S := S1x1) hz2]

/-- and the output entry receives the updated accumulator. -/
theorem out_last (c : Dev nD) (i : grid0.Coords) (a1 : Memref sig .tc .vmem S16x1024x128 .f32) (h1 : a1.IsWhole)
    (a2 : Memref sig .tc .vmem S1024x128 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 : Vec F S16x1024x128 .f32) (x1 : Vec F S1024x128 .f32) (xs0 : Vec F S1x1 .f32) :
    out0_C_2 c i a1 h1 a2 h2 a3 h3 a4 h4 hc0 hc1 x0 x1 xs0 = k0_pay2 x0 x1 xs0 := by
  unfold out0_C_2
  rw [View.read_writes_eq_canon _ _ _ (cover0_C_2 c i a1 h1 a2 h2 a3 h3 a4 h4 hc0 hc1 x0 x1 xs0)]
  unfold kernelRun0_C
  dsimp only
  sl_unfold_words
  rw [View.canon_unit_zero hz2, View.readCov_unit_zero (S := S1x1) _ hz2]
  simp only [View.readAt_eq_ld, h1.read_unread, h2.read_unread, h4.read_unread, View.ld_unit_zero (S := S16x1024x128) hz3,
    View.ld_unit_zero (S := S1024x128) hz2, View.ld_unit_zero (S := S1x1) hz2]

end Cert.KernelIdeal.Pieces

end
-- ==== Proof.LibKeepdims.lean ====
/-
  Keepdims layouts and last-axis reductions of a matrix, read at indices written by coordinates.

  A sum or maximum taken with the reduced axis kept prints as a reduction to a vector [a], a cast of that vector to a
  column [a, 1], and a broadcast of the column across [a, b]. Read at (p, c), the column is the vector at p and the
  broadcast is the column at p; a vector [n] viewed as [1, 1, n] keeps its entries. A reduction of a matrix [a, b]
  over its last axis reads, at row p, the entries (p, k) for every k: a float sum is their sum, a float maximum from
  −∞ is their maximum folded from −∞. The words of −∞ and of 1.0 denote −∞ and 1.
  Every statement is generic in the extents.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector [a] cast to a column [a, 1] reads, at (p, u), the vector at p. -/
theorem cast_vec_col {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, c), the column at p. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] cast to [1, 1, n] reads, at (u, u', j), the vector at j. -/
theorem cast_vec_11n {n : ℕ} (x : (⟨1, ![n]⟩ : Shape).Idx → α) (h : (⟨1, ![n]⟩ : Shape).ShapeCasts ⟨3, ![1, 1, n]⟩)
    (u u' : Fin 1) (j : Fin n) : shapeCast ⟨3, ![1, 1, n]⟩ x h (ix3 u u' j) = x (ix1 j) :=
  shapeCast_apply x h _ _ (by
    have hu : u.val = 0 := by omega
    have hu' : u'.val = 0 := by omega
    rw [Shape.rowMajor_val_three, Shape.rowMajor_val_one]
    show j.val = (u.val * 1 + u'.val) * n + j.val
    rw [hu, hu']
    simp)

/-- Over row p of a matrix, the index a last-axis reduction inserts coordinate k into is (p, k). -/
theorem lift_row {a b : ℕ} (h : (⟨2, ![a, b]⟩ : Shape).Reduces [1] ⟨1, ![a]⟩) (p : Fin a) (k : Fin b) :
    h.lift (ix1 p) k = ix2 p k :=
  funext fun c => Fin.ext (match c with | ⟨0, _⟩ => rfl | ⟨1, _⟩ => rfl)

/-- A float sum of a matrix over its last axis, at row p, is the sum of that row. -/
theorem sum_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (lift_row h p k))

/-- The word of f32's −∞ denotes −∞. -/
theorem ofBits_neg_inf : Ideal.ofBits .f32 0xFF800000#32 = (⊥ : EReal) := by simp [Ideal.ofBits, Ideal.ieee]

/-- The word of f32's 1.0 denotes 1. -/
theorem ofBits_one_f32 : Ideal.ofBits .f32 0x3F800000#32 = (1 : EReal) :=
  IdealRules.sign_bit.ideal_onePat .f32

/-- The word of bf16's 1.0 denotes 1. -/
theorem ofBits_one_bf16 : Ideal.ofBits .bf16 0x3F80#16 = (1 : EReal) :=
  IdealRules.sign_bit.ideal_onePat .bf16

/-- A float maximum of a matrix over its last axis from −∞, at row p, is the maximum of that row from −∞. -/
theorem max_row {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src _ h hφ hacc (ix1 p)).trans ?_
  show (Finset.univ : Finset (Fin b)).fold max (Ideal.ofBits .f32 0xFF800000#32) (src ∘ h.lift (ix1 p)) = _
  rw [ofBits_neg_inf]
  exact congrArg (fun g : Fin b → EReal => (Finset.univ : Finset (Fin b)).fold max ⊥ g)
    (funext fun k => congrArg src (lift_row h p k))

end Cert.LibKeepdims

end
-- ==== Proof.LibRank3.lean ====
/-
  Sums over one axis and a broadcast of one slab, read at indices written by coordinates.

  A float sum of a rank-3 array [a, b, c] over its last axis reads, at (p, q), the entries (p, q, k) for every k.
  A float sum of a matrix [a, b] over its first axis reads, at column q, the entries (k, q) for every k.
  A slab [1, b, c] broadcast to [a, b, c] reads, at (p, q, r), the slab at (0, q, r).
  Every statement is generic in the extents.
-/
import Idealize.ShloMosaic.Lib.ValueLayout
import Idealize.ShloMosaic.PureOps.Ideal.Laws

noncomputable section

open scoped BigOperators

namespace Cert.LibRank3

open Idealize.ShloMosaic Idealize.ShloMosaic.ValueIdx

variable {α : Type}

/-- Over entry (p, q) of the first two axes, the index a last-axis reduction inserts coordinate k into is (p, q, k). -/
theorem lift_last3 {a b c : ℕ} (h : (⟨3, ![a, b, c]⟩ : Shape).Reduces [2] ⟨2, ![a, b]⟩) (p : Fin a) (q : Fin b) (k : Fin c) :
    h.lift (ix2 p q) k = ix3 p q k :=
  funext fun ax => Fin.ext (match ax with | ⟨0, _⟩ => rfl | ⟨1, _⟩ => rfl | ⟨2, _⟩ => rfl)

/-- A float sum of a rank-3 array over its last axis, at (p, q), is the sum of the entries (p, q, k). -/
theorem sum_last3 {a b c : ℕ} (src : FVec Ideal ⟨3, ![a, b, c]⟩ .f32) (h : (⟨3, ![a, b, c]⟩ : Shape).Reduces [2] ⟨2, ![a, b]⟩)
    (hφ : FKind.Formats .f32) (hacc : (0x00000000#32 : BitVec 32) = FKind.add.neutral .f32 hφ) (p : Fin a) (q : Fin b) :
    multiReduction .add [2] ⟨2, ![a, b]⟩ src 0x00000000#32 h hφ hacc (ix2 p q) = ∑ k : Fin c, src (ix3 p q k) :=
  (Ideal.multiReduction_add_single src _ h hφ hacc (ix2 p q)).trans
    (Finset.sum_congr rfl fun k _ => congrArg src (lift_last3 h p q k))

/-- Over column q of a matrix, the index a first-axis reduction inserts coordinate k into is (k, q). -/
theorem lift_col {a b : ℕ} (h : (⟨2, ![a, b]⟩ : Shape).Reduces [0] ⟨1, ![b]⟩) (q : Fin b) (k : Fin a) :
    h.lift (ix1 q) k = ix2 k q :=
  funext fun ax => Fin.ext (match ax with | ⟨0, _⟩ => rfl | ⟨1, _⟩ => rfl)

/-- A float sum of a matrix over its first axis, at column q, is the sum of that column. -/
theorem sum_col {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ src 0x00000000#32 h hφ hacc (ix1 q) = ∑ k : Fin a, src (ix2 k q) :=
  (Ideal.multiReduction_add_single src _ h hφ hacc (ix1 q)).trans
    (Finset.sum_congr rfl fun k _ => congrArg src (lift_col h q k))

/-- A slab [1, b, c] broadcast to [a, b, c] reads, at (p, q, r), the slab at (0, q, r). -/
theorem bcast_slab {a b c : ℕ} (v : (⟨3, ![1, b, c]⟩ : Shape).Idx → α) (h : (⟨3, ![1, b, c]⟩ : Shape).Broadcasts ⟨3, ![a, b, c]⟩)
    (p : Fin a) (q : Fin b) (r : Fin c) : broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

end Cert.LibRank3

end
-- ==== Proof.KernelPayload.lean ====
/-
  The accumulator's update at the ideal instance, read at its one entry.

  With the block of sixteen slabs x0, the table x1 and the accumulator's value xs, the update's one entry is
  xs plus the sum over the sixteen slabs a and the 1024 rows i of the distance between row (a, i) of the block and
  row i of the table. The body forms it by three sums in a row: over the features (inside the root), over the rows
  of a slab, over the slabs; between them the results are viewed as a column and as a one-by-one block, which
  changes no entry. The table is viewed as one slab and repeated over the sixteen slabs.
-/
import proofs.«152347_j84490596646977_1_alg».proof.Proof.Gen.KernelIdeal.Skeleton
import proofs.«152347_j84490596646977_1_alg».proof.Proof.LibKeepdims
import proofs.«152347_j84490596646977_1_alg».proof.Proof.LibRank3

noncomputable section

open scoped BigOperators
open Idealize.ShloMosaic Idealize.ShloMosaic.TcCoe Idealize.SL.Sem Idealize.ShloMosaic.ValueIdx

namespace Cert.KernelIdeal.Payload

open Cert.KernelIdeal Cert.KernelIdeal.Gen

/-- The distance between row (a, i) of a block of sixteen slabs and row i of the table. -/
def blockDist (x0 : FVec Ideal S16x1024x128 .f32) (x1 : FVec Ideal S1024x128 .f32) (a : Fin 16) (i : Fin 1024) : EReal :=
  Ideal.sqrt (∑ d : Fin 128, (x0 (ix3 a i d) - x1 (ix2 i d)) * (x0 (ix3 a i d) - x1 (ix2 i d)))

/-- The table viewed as one slab and repeated over sixteen slabs reads, at (a, i, d), the table at (i, d). -/
theorem table_repeated (x1 : FVec Ideal S1024x128 .f32) (a : Fin 16) (i : Fin 1024) (d : Fin 128) :
    broadcastTo S16x1024x128 (shapeCast S1x1024x128 x1 shapeCasts_S1024x128_S1x1024x128) broadcasts_S1x1024x128_S16x1024x128
      (ix3 a i d) = x1 (ix2 i d) :=
  (Cert.LibRank3.bcast_slab _ broadcasts_S1x1024x128_S16x1024x128 a i d).trans
    (shapeCast_ab_1ab_apply x1 shapeCasts_S1024x128_S1x1024x128 0 i d)

/-- The update's one entry. -/
theorem update_apply (x0 : FVec Ideal S16x1024x128 .f32) (x1 : FVec Ideal S1024x128 .f32) (xs : FVec Ideal S1x1 .f32)
    (y : S1x1.Idx) :
    k0_pay2 (F := Ideal) x0 x1 xs y = xs y + ∑ a : Fin 16, ∑ i : Fin 1024, blockDist x0 x1 a i := by
  obtain ⟨p, q, rfl⟩ : ∃ (p : Fin 1) (q : Fin 1), y = ix2 p q := ⟨y 0, y 1, eq_ix2 y⟩
  unfold k0_pay2
  dsimp only
  rw [shapeCast_self]
  refine congrArg (xs (ix2 p q) + ·) ?_
  refine (Cert.LibKeepdims.cast_vec_col _ shapeCasts_S1_S1x1 p q).trans ?_
  refine (Cert.LibRank3.sum_col _ reduces_S16x1_S1 (.inl rfl) rfl p).trans ?_
  refine Finset.sum_congr rfl fun a _ => ?_
  refine (Cert.LibKeepdims.cast_vec_col _ shapeCasts_S16_S16x1 a p).trans ?_
  refine (Cert.LibKeepdims.sum_row _ reduces_S16x1024_S16 (.inl rfl) rfl a).trans ?_
  refine Finset.sum_congr rfl fun i _ => ?_
  refine congrArg Ideal.sqrt ?_
  refine (Cert.LibRank3.sum_last3 _ reduces_S16x1024x128_S16x1024 (.inl rfl) rfl a i).trans ?_
  refine Finset.sum_congr rfl fun d _ => ?_
  show (x0 (ix3 a i d) - _) * (x0 (ix3 a i d) - _) = _
  rw [table_repeated x1 a i d]

end Cert.KernelIdeal.Payload

end
-- ==== Proof.Spec.lean ====
/-
  The number both programs compute.

  For an array x of 1024 slabs, each of 1024 feature rows of 128 features, and a table tg of 1024 feature rows,
  the distance d(j, i) is the Euclidean distance between row i of slab j and row i of the table: the square root of
  the sum over the 128 features of the squared differences. The programs return the sum of d(j, i) over all j and i,
  divided by 1024. One program sums the slabs in 64 blocks of sixteen; the other sums all pairs (j, i) at once.
  Over the extended reals addition is commutative and associative, so the two groupings give one sum.
-/
import Idealize.ShloMosaic.Lib.ValueIdx
import Idealize.ShloMosaic.PureOps.Ideal.Laws

noncomputable section

open scoped BigOperators

namespace Cert.Spec

open Idealize.ShloMosaic Idealize.ShloMosaic.ValueIdx

/-- The distance between feature row (j, i) of x and feature row i of tg. -/
def dist (x : (⟨3, ![1024, 1024, 128]⟩ : Shape).Idx → EReal) (tg : (⟨2, ![1024, 128]⟩ : Shape).Idx → EReal)
    (j i : Fin 1024) : EReal :=
  Ideal.sqrt (∑ d : Fin 128, (x (ix3 j i d) - tg (ix2 i d)) * (x (ix3 j i d) - tg (ix2 i d)))

/-- The distances of slab j, summed over its rows. -/
def slabSum (x : (⟨3, ![1024, 1024, 128]⟩ : Shape).Idx → EReal) (tg : (⟨2, ![1024, 128]⟩ : Shape).Idx → EReal)
    (j : Fin 1024) : EReal :=
  ∑ i : Fin 1024, dist x tg j i

/-- All distances summed. -/
def total (x : (⟨3, ![1024, 1024, 128]⟩ : Shape).Idx → EReal) (tg : (⟨2, ![1024, 128]⟩ : Shape).Idx → EReal) : EReal :=
  ∑ j : Fin 1024, slabSum x tg j

/-- The result: the sum of all distances divided by the float 1024.0, whose word is kept as written. -/
def mean (x : (⟨3, ![1024, 1024, 128]⟩ : Shape).Idx → EReal) (tg : (⟨2, ![1024, 128]⟩ : Shape).Idx → EReal) : EReal :=
  Ideal.div (total x tg) (Ideal.ofBits .f32 0x44800000#32)

/-- Slab a of the t-th block of sixteen slabs is slab 16 t + a. -/
def blkRow (t : Fin 64) (a : Fin 16) : Fin 1024 := ⟨16 * t.val + a.val, by omega⟩

/-- The distances of the sixteen slabs of block t, summed. -/
def blockSum (x : (⟨3, ![1024, 1024, 128]⟩ : Shape).Idx → EReal) (tg : (⟨2, ![1024, 128]⟩ : Shape).Idx → EReal)
    (t : Fin 64) : EReal :=
  ∑ a : Fin 16, slabSum x tg (blkRow t a)

/-- The same for every natural number, zero past the last block. -/
def blockSumN (x : (⟨3, ![1024, 1024, 128]⟩ : Shape).Idx → EReal) (tg : (⟨2, ![1024, 128]⟩ : Shape).Idx → EReal)
    (t : ℕ) : EReal :=
  if h : t < 64 then blockSum x tg ⟨t, h⟩ else 0

theorem blockSumN_of_lt (x : (⟨3, ![1024, 1024, 128]⟩ : Shape).Idx → EReal) (tg : (⟨2, ![1024, 128]⟩ : Shape).Idx → EReal)
    (t : ℕ) (h : t < 64) : blockSumN x tg t = blockSum x tg ⟨t, h⟩ := dif_pos h

/-- Summing block by block, and inside each block slab by slab, visits every slab once. -/
theorem sum_blocks {M : Type*} [AddCommMonoid M] (f : Fin 1024 → M) :
    ∑ t : Fin 64, ∑ a : Fin 16, f (blkRow t a) = ∑ j : Fin 1024, f j := by
  calc ∑ t : Fin 64, ∑ a : Fin 16, f (blkRow t a)
      = ∑ p : Fin 64 × Fin 16, f (blkRow p.1 p.2) := (Fintype.sum_prod_type' fun t a => f (blkRow t a)).symm
    _ = ∑ j : Fin 1024, f j :=
        Fintype.sum_equiv (finProdFinEquiv : Fin 64 × Fin 16 ≃ Fin 1024) _ _ fun p =>
          congrArg f (Fin.ext (by
            show 16 * p.1.val + p.2.val = p.2.val + 16 * p.1.val
            omega))

/-- The 64 block sums add up to the total. -/
theorem sum_blockSumN (x : (⟨3, ![1024, 1024, 128]⟩ : Shape).Idx → EReal) (tg : (⟨2, ![1024, 128]⟩ : Shape).Idx → EReal) :
    ∑ t ∈ Finset.range 64, blockSumN x tg t = total x tg := by
  rw [Finset.sum_range fun t => blockSumN x tg t]
  calc ∑ t : Fin 64, blockSumN x tg t.val
      = ∑ t : Fin 64, ∑ a : Fin 16, slabSum x tg (blkRow t a) :=
        Finset.sum_congr rfl fun t _ => blockSumN_of_lt x tg t.val t.isLt
    _ = total x tg := sum_blocks (slabSum x tg)

end Cert.Spec

end
-- ==== Proof.KernelAcc.lean ====
/-
  The accumulator after each grid point, at the ideal instance.

  Point t loads the block of slabs 16 t … 16 t + 15 and the whole table, so the block's sum of distances is the
  t-th block sum of the specification. The accumulator starts from a stored zero at point 0 and grows by one block
  sum per point: after point n it holds the sum of the block sums 0 … n. The last point also copies it to the
  output entry, which therefore ends at the sum of all 64 block sums: the total of all distances.
-/
import proofs.«152347_j84490596646977_1_alg».proof.Proof.Gen.KernelIdeal.Frame
import proofs.«152347_j84490596646977_1_alg».proof.Proof.KernelPieces
import proofs.«152347_j84490596646977_1_alg».proof.Proof.KernelPayload
import proofs.«152347_j84490596646977_1_alg».proof.Proof.Spec
import Idealize.ShloMosaic.Lib.Pipeline.Value

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen

variable (m : (ℓ : Loc nD τ sig) → Buf (Elt Ideal) ℓ)

/-- The two argument arrays as the region finds them, and the blocks point t loads. -/
abbrev xarr (c : Dev nD) : FVec Ideal S1024x1024x128 .f32 := V m c main_arg0
abbrev tarr (c : Dev nD) : FVec Ideal S1024x128 .f32 := V m c main_arg1
abbrev xblk (c : Dev nD) (t : Fin cfg0.N) : FVec Ideal S16x1024x128 .f32 := iblk m c 0 t
abbrev tblk (c : Dev nD) (t : Fin cfg0.N) : FVec Ideal S1024x128 .f32 := iblk m c 1 t

theorem hN : cfg0.N = 64 := N_0

/-- A grid point as a block number. -/
def pt (t : Fin cfg0.N) : Fin 64 := ⟨t.val, lt_of_lt_of_eq t.isLt hN⟩

/-- The slab window's block index at point t is (t, 0, 0); the table window's is (0, 0). -/
theorem idx_x : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx_t : ∀ t : Fin cfg0.N, win0_1.index t 0 = 0 ∧ win0_1.index t 1 = 0 :=
  (by decide +kernel : ∀ t : Fin grid0.N, win0_1.index t 0 = 0 ∧ win0_1.index t 1 = 0)

/-- Entry (a, i, d) of the block loaded at point t is entry (16 t + a, i, d) of the array. -/
theorem xblk_apply (c : Dev nD) (t : Fin cfg0.N) (a : Fin 16) (i : Fin 1024) (d : Fin 128) :
    xblk m c t (ix3 a i d) = xarr m c (ix3 (Cert.Spec.blkRow (pt t) a) i d) := by
  show iblk m c 0 t (ix3 a i d) = V m c main_arg0 _
  unfold iblk
  rw [View.read_apply]
  show V m c main_arg0 _ = V m c main_arg0 _
  congr 1
  funext ax
  apply Fin.ext
  match ax with
  | ⟨0, _⟩ => show win0_0.index t 0 * 16 + 1 * a.val = 16 * t.val + a.val; rw [(idx_x t).1]; omega
  | ⟨1, _⟩ => show win0_0.index t 1 * 1024 + 1 * i.val = i.val; rw [(idx_x t).2.1]; omega
  | ⟨2, _⟩ => show win0_0.index t 2 * 128 + 1 * d.val = d.val; rw [(idx_x t).2.2]; omega

/-- The table's block is the whole table at every point. -/
theorem tblk_apply (c : Dev nD) (t : Fin cfg0.N) (i : Fin 1024) (d : Fin 128) :
    tblk m c t (ix2 i d) = tarr m c (ix2 i d) := by
  show iblk m c 1 t (ix2 i d) = V m c main_arg1 _
  unfold iblk
  rw [View.read_apply]
  show V m c main_arg1 _ = V m c main_arg1 _
  congr 1
  funext ax
  apply Fin.ext
  match ax with
  | ⟨0, _⟩ => show win0_1.index t 0 * 1024 + 1 * i.val = i.val; rw [(idx_t t).1]; omega
  | ⟨1, _⟩ => show win0_1.index t 1 * 128 + 1 * d.val = d.val; rw [(idx_t t).2]; omega

/-- A distance inside the loaded block is the array's distance at slab 16 t + a. -/
theorem blockDist_eq (c : Dev nD) (t : Fin cfg0.N) (a : Fin 16) (i : Fin 1024) :
    Cert.KernelIdeal.Payload.blockDist (xblk m c t) (tblk m c t) a i
      = Cert.Spec.dist (xarr m c) (tarr m c) (Cert.Spec.blkRow (pt t) a) i := by
  unfold Cert.KernelIdeal.Payload.blockDist Cert.Spec.dist
  refine congrArg Ideal.sqrt (Finset.sum_congr rfl fun d _ => ?_)
  rw [xblk_apply, tblk_apply]

/-- The loaded block's sum of distances is the t-th block sum. -/
theorem block_total (c : Dev nD) (t : Fin cfg0.N) :
    ∑ a : Fin 16, ∑ i : Fin 1024, Cert.KernelIdeal.Payload.blockDist (xblk m c t) (tblk m c t) a i
      = Cert.Spec.blockSumN (xarr m c) (tarr m c) t.val := by
  rw [Cert.Spec.blockSumN_of_lt _ _ t.val (lt_of_lt_of_eq t.isLt hN)]
  show _ = Cert.Spec.blockSum (xarr m c) (tarr m c) (pt t)
  unfold Cert.Spec.blockSum Cert.Spec.slabSum
  exact Finset.sum_congr rfl fun a _ => Finset.sum_congr rfl fun i _ => blockDist_eq m c t a i

/-- The update at point t adds the t-th block sum to what the accumulator held. -/
theorem update_point (c : Dev nD) (t : Fin cfg0.N) (xs : FVec Ideal S1x1 .f32) (y : S1x1.Idx) :
    k0_pay2 (F := Ideal) (xblk m c t) (tblk m c t) xs y = xs y + Cert.Spec.blockSumN (xarr m c) (tarr m c) t.val :=
  (Cert.KernelIdeal.Payload.update_apply (xblk m c t) (tblk m c t) xs y).trans (congrArg (xs y + ·) (block_total m c t))

/-- The value stored at the first point is zero. -/
theorem zero_apply (y : S1x1.Idx) : k0_pay1 (F := Ideal) y = 0 := by
  unfold k0_pay1
  rw [shapeCast_self]
  exact Ideal.ofBits_zero_f32

/-- After point n the accumulator holds the sum of the block sums 0 … n. -/
theorem acc_eq (c : Dev nD) : ∀ (n : ℕ) (hn : n < cfg0.N) (y : S1x1.Idx),
    (outsAt0 m c n hn).2 y = ∑ s ∈ Finset.range (n + 1), Cert.Spec.blockSumN (xarr m c) (tarr m c) s
  | 0, hn, y => by
    rw [outsAt0_A m c ⟨0, hn⟩ rfl (by show ¬(0 % 64 = 63); decide)]
    dsimp only
    rw [Cert.KernelIdeal.Pieces.acc_first]
    rw [update_point m c ⟨0, hn⟩, zero_apply, zero_add, Finset.sum_range_one]
  | n + 1, hn, y => by
    have h64 : n + 1 < 64 := lt_of_lt_of_eq hn hN
    have h0 : ¬(⟨n + 1, hn⟩ : Fin cfg0.N).val % 64 = 0 := by dsimp only; omega
    by_cases h1 : (⟨n + 1, hn⟩ : Fin cfg0.N).val % 64 = 63
    · rw [outsAt0_C m c ⟨n + 1, hn⟩ h0 h1]
      dsimp only
      rw [Cert.KernelIdeal.Pieces.acc_last]
      rw [update_point m c ⟨n + 1, hn⟩]
      show (outsAt0 m c n _).2 y + _ = _
      rw [acc_eq c n _ y, Finset.sum_range_succ _ (n + 1)]
    · rw [outsAt0_B m c ⟨n + 1, hn⟩ h0 h1]
      dsimp only
      rw [Cert.KernelIdeal.Pieces.acc_middle]
      rw [update_point m c ⟨n + 1, hn⟩]
      show (outsAt0 m c n _).2 y + _ = _
      rw [acc_eq c n _ y, Finset.sum_range_succ _ (n + 1)]

/-- At the last point the output entry receives what the accumulator ends at. -/
theorem out_eq_acc (c : Dev nD) (hn : 63 < cfg0.N) (y : S1x1.Idx) :
    (outsAt0 m c 63 hn).1 y = (outsAt0 m c 63 hn).2 y := by
  rw [outsAt0_C m c ⟨63, hn⟩ (by show ¬(63 % 64 = 0); decide) rfl]
  dsimp only
  rw [Cert.KernelIdeal.Pieces.out_last, Cert.KernelIdeal.Pieces.acc_last]

/-- So the output entry ends at the total of all distances. -/
theorem out_total (c : Dev nD) (hn : 63 < cfg0.N) :
    (outsAt0 m c 63 hn).1 = fun _ => Cert.Spec.total (xarr m c) (tarr m c) := by
  funext y
  rw [out_eq_acc m c hn y, acc_eq m c 63 hn y]
  exact Cert.Spec.sum_blockSumN _ _

end Cert.KernelIdeal.Acc

end
-- ==== Proof.KernelValue.lean ====
/-
  The kernel program's result at the ideal instance is the mean distance.

  The output array has one entry and is written back once, after the last grid point, with the accumulated total of
  all distances. The program then views that entry as a scalar and divides it by 1024.0.
-/
import proofs.«152347_j84490596646977_1_alg».proof.Proof.Gen.KernelIdeal.Frame
import proofs.«152347_j84490596646977_1_alg».proof.Proof.KernelAcc
import proofs.«152347_j84490596646977_1_alg».proof.Proof.Spec
import Idealize.ShloMosaic.Lib.Pipeline.Value
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Acc

variable (m : (ℓ : Loc nD τ sig) → Buf (Elt Ideal) ℓ) (ρ : Dev nD → PrngReg)

/-- The last grid point. -/
def tLast : Fin cfg0.N := ⟨63, by rw [hN]; decide⟩

/-- What the output array ends holding: the total of all distances at its one entry. -/
abbrev total (c : Dev nD) : Buf (Elt Ideal) ((c : Thread nD τ).loc main_v0) :=
  fun _ => Cert.Spec.total (xarr m c) (tarr m c)

/-- The one write-back, at the last point, writes the total: the block is the whole one-entry array. -/
theorem flushed_eq (c : Dev nD) (t : Fin cfg0.N) (hf : (cfg0.win 2).flush t = true) :
    (dats m 0 c).flushed 2 t = ((cfg0.win 2).blk t).view.read (Elt Ideal) (total m c) := by
  have h63 : t.val = 63 := by
    have h := (flush0_2 t).mp hf
    have := lt_of_lt_of_eq t.isLt hN
    omega
  obtain rfl : t = tLast := Fin.ext h63
  show (cfg0.win 2).cut (grid0.coords tLast) ((dats m 0 c).after 2 tLast) = _
  rw [after0_2]
  show (cfg0.win 2).cut (grid0.coords tLast) (outsAt0 m c 63 tLast.isLt).1 = _
  rw [out_total m c tLast.isLt]
  have hz' : (fun a => win0_2.index tLast a * main_v0.ty.shape.size a) = fun _ => 0 :=
    funext fun a => by fin_cases a <;> decide +kernel
  exact (Memref.read_access_unit_zero (Elt Ideal) main_v0 hz' (fun a => by rw [congrFun hz' a]; simp) (total m c)).symm

/-- So the output array ends holding the total. -/
theorem final (c : Dev nD) : (dats m 0 c).arrAt 2 cfg0.N = total m c :=
  (dats m 0 c).arrAt_eq_of_cover 2 (total m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]
        omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 1 from by decide +kernel]
        omega⟩

/-- The program's result buffer after the host lines that follow the region: the total viewed as a scalar, divided
    by 1024.0. -/
theorem tail_eq (c : Dev nD) :
    Pipeline.afterTail₀ cfgs (dats m) 0 (V0 m) [hostOps1] c main_v2 = fun _ => Cert.Spec.mean (xarr m c) (tarr m c) := by
  have e : Pipeline.withArrays (cfgs 0).spec c (V0 m c) (fun w => (dats m 0 c).arrAt w (cfgs 0).N) (Proc.devRef .tc main_v0) = total m c :=
    (Pipeline.withArrays_arr spec0 launch0.win.arr_inj c _ _ 2).trans (final m c)
  unfold Pipeline.afterTail₀
  show StableHlo.after hostOps1 _ (Proc.devRef .tc main_v2) = _
  after_results
  rw [e]
  funext y
  rfl

/-- The result buffer bypasses the region: it is unscoped and no window's array. -/
theorem result_bypasses : main_v2 ∈ Pipeline.restRefs sig (cfgs 0).spec :=
  Pipeline.mem_restRefs_of main_v2 rfl (by decide)

/-- The run, read: the result buffer ends at the mean distance of the argument arrays, which end unchanged. -/
theorem run : θ_run defs (onTc (τ := τ) (main (F := Ideal))) ⟨m, fun _ => 0, ρ⟩ fun r => ∀ c : Dev nD,
      r.2.mem ((c.tc : Thread nD τ).loc main_v2)
        = (fun _ => Cert.Spec.mean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 result_bypasses).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Result

end
-- ==== Proof.RefValue.lean ====
/-
  The reference's result at the ideal instance is the mean distance.

  The reference repeats the table over the slabs, subtracts, squares, sums over the features from zero, takes the
  root, sums over all pairs (slab, row) from zero, and divides by 1024.0. Read index by index: the entry (j, i) after
  the root is the distance d(j, i); zero plus a sum is the sum; a sum over all pairs is the double sum over slabs
  and rows.
-/
import proofs.«152347_j84490596646977_1_alg».proof.Defs
import proofs.«152347_j84490596646977_1_alg».proof.Proof.Gen.ReferenceIdeal.Run
import proofs.«152347_j84490596646977_1_alg».proof.Proof.Gen.ReferenceIdeal.Read
import proofs.«152347_j84490596646977_1_alg».proof.Proof.Spec

noncomputable section

open scoped BigOperators
open Idealize.ShloMosaic Idealize.ShloMosaic.TcCoe Idealize.SL.Sem Idealize.ShloMosaic.ValueIdx

namespace Cert.RefValue

open Cert.ReferenceIdeal Cert.ReferenceIdeal.Gen Cert.ReferenceIdeal.Read

/-- Feature d of row (j, i), as the feature sum's index map spells it. -/
theorem feature_index (j i : Fin 1024) (d : Fin 128) : idx_main_v4 (ix2 j i) d = ix3 j i d :=
  funext fun a => Fin.ext (match a with | ⟨0, _⟩ => rfl | ⟨1, _⟩ => rfl | ⟨2, _⟩ => rfl)

/-- The repeated table at (j, i, d) is the table at (i, d). -/
theorem table_index (j i : Fin 1024) (d : Fin 128) : idx_main_v0 (idx_main_v1 (ix3 j i d)) = ix2 i d :=
  funext fun a => Fin.ext (match a with | ⟨0, _⟩ => rfl | ⟨1, _⟩ => rfl)

/-- After the root, entry (j, i) is the distance d(j, i). -/
theorem root_apply (x0 : (⟨S1024x1024x128, .f32⟩ : BufTy).Contents (Elt Ideal)) (x1 : (⟨S1024x128, .f32⟩ : BufTy).Contents (Elt Ideal))
    (j i : Fin 1024) : val_main_v5 (F := Ideal) x0 x1 (ix2 j i) = Cert.Spec.dist x0 x1 j i := by
  rw [val_main_v5_apply, val_main_v4_apply, val_main_cst_apply]
  show Ideal.sqrt (Ideal.ofBits .f32 0x00000000#32 + _) = _
  rw [Ideal.ofBits_zero_f32, zero_add]
  unfold Cert.Spec.dist
  refine congrArg Ideal.sqrt (Finset.sum_congr rfl fun d _ => ?_)
  rw [val_main_v3_apply, val_main_v2_apply, val_main_v1_apply, val_main_v0_apply, feature_index, table_index]
  rfl

/-- The reference's result is the mean distance. -/
theorem result_eq (x0 : (⟨S1024x1024x128, .f32⟩ : BufTy).Contents (Elt Ideal)) (x1 : (⟨S1024x128, .f32⟩ : BufTy).Contents (Elt Ideal)) :
    val_main_v7 (F := Ideal) x0 x1 = fun _ => Cert.Spec.mean x0 x1 := by
  funext y
  rw [val_main_v7_apply, val_main_v6_apply, val_main_cst_1_apply, val_main_cst_0_apply]
  show Ideal.div (Ideal.ofBits .f32 0x00000000#32 + _) (Ideal.ofBits .f32 0x44800000#32) = _
  rw [Ideal.ofBits_zero_f32, zero_add]
  unfold Cert.Spec.mean Cert.Spec.total Cert.Spec.slabSum
  refine congrArg (Ideal.div · _) ?_
  refine (sum_idx2 _).trans ?_
  exact Finset.sum_congr rfl fun j _ => Finset.sum_congr rfl fun i _ => root_apply x0 x1 j i

end Cert.RefValue

end
-- ==== Proof.lean ====
/-
  The mean distance, computed two ways.

  For slabs x[j] of 1024 feature rows of 128 features and a table tg of 1024 feature rows, let d(j, i) be the
  Euclidean distance between row i of slab j and row i of the table. Both programs return the sum of d(j, i) over
  all 1024 × 1024 pairs divided by 1024.0.

  The kernel walks the slabs in 64 blocks of sixteen. For each block it sums the squared differences over the
  features, takes the root, sums over the rows and then over the sixteen slabs, and adds that block sum to a
  one-entry accumulator that starts from zero; after the last block it writes the accumulator out, and the host
  divides by 1024.0. The reference forms all the distances at once, sums them from zero, and divides by 1024.0.

  Over the extended reals addition is commutative and associative, zero plus a sum is the sum, the root is one
  function on both sides and the divisor is the same word, so both results are the same number; no finiteness of
  the inputs is used. The idealized kernel is the printed kernel's own text read over the extended reals, so there
  is nothing to preserve. The three frame claims are the generated frame runs, the reference's from its generated run.
-/
import proofs.«152347_j84490596646977_1_alg».proof.Defs
import proofs.«152347_j84490596646977_1_alg».proof.Proof.Gen.Kernel
import proofs.«152347_j84490596646977_1_alg».proof.Proof.Gen.Kernel.Skeleton
import proofs.«152347_j84490596646977_1_alg».proof.Proof.Gen.Kernel.Launch
import proofs.«152347_j84490596646977_1_alg».proof.Proof.Gen.Kernel.Points
import proofs.«152347_j84490596646977_1_alg».proof.Proof.Gen.Kernel.Frame
import proofs.«152347_j84490596646977_1_alg».proof.Proof.Gen.KernelIdeal
import proofs.«152347_j84490596646977_1_alg».proof.Proof.Gen.KernelIdeal.Skeleton
import proofs.«152347_j84490596646977_1_alg».proof.Proof.Gen.KernelIdeal.Launch
import proofs.«152347_j84490596646977_1_alg».proof.Proof.Gen.KernelIdeal.Points
import proofs.«152347_j84490596646977_1_alg».proof.Proof.Gen.KernelIdeal.Frame
import proofs.«152347_j84490596646977_1_alg».proof.Proof.Gen.ReferenceIdeal
import proofs.«152347_j84490596646977_1_alg».proof.Proof.Gen.ReferenceIdeal.Run
import proofs.«152347_j84490596646977_1_alg».proof.Proof.Gen.ReferenceIdeal.Read
import proofs.«152347_j84490596646977_1_alg».proof.Proof.Gen.Pre_finite_inputs
import proofs.«152347_j84490596646977_1_alg».proof.Proof.KernelValue
import proofs.«152347_j84490596646977_1_alg».proof.Proof.RefValue
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the printed kernel's own text: no operation was rewritten. -/
theorem preserves : Cert.preserves_Kernel_KernelIdeal := trivial

/-- From arguments that agree, the kernel's result buffer and the reference's both end at the mean distance. -/
theorem algebraic : Cert.algebraic_KernelIdeal_ReferenceIdeal := by
  intro m ρ m' ρ' _ hagree
  refine ⟨fun c _ => Cert.Spec.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
